-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S256 : Shape := ⟨1, ![256]⟩
abbrev S1x256x1x1 : Shape := ⟨4, ![1, 256, 1, 1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn_part1 {F : FTy → Type} [FloatOps F] (main_arg4 : FVec F S256 .f32) (main_arg5 : FVec F S1x256x1x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256x1x1 .f32 := Host.absf main_arg5
  let main_cst_8 : FVec F S_ .f32 := constant S_ .f32 0x7F800000#32
  let main_v25 : FVec F S1x256x1x1 .f32 := broadcastInDim S1x256x1x1 ![] bcast_S_S1x256x1x1 main_cst_8
  let main_v26 : IVec S1x256x1x1 1 := cmpf .olt main_v24 main_v25
  let main_c_9 : IVec S_ 1 := constantI S_ 1 1#1
  let main_v27 : IVec S_ 1 := (fun x v => Host.reduce IntOp.andi x v reducesTo_S1x256x1x1_S_d0_1_2_3 h_S_) main_v26 main_c_9
  let main_v28 : IVec S_ 1 := andi main_v23 main_v27
  main_v28

def fn {F : FTy → Type} [FloatOps F] (main_arg0 : FVec F S65536x512 .f32) (main_arg1 : FVec F S256x512 .f32) (main_arg2 : FVec F S256 .f32) (main_arg3 : FVec F S256 .f32) (main_arg4 : FVec F S256 .f32) (main_arg5 : FVec F S1x256x1x1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S65536x512 : Shape := ⟨2, ![65536, 512]⟩
abbrev S256x512 : Shape := ⟨2, ![256, 512]⟩
abbrev S256 : Shape := ⟨1, ![256]⟩
abbrev S1x256x1x1 : Shape := ⟨4, ![1, 256, 1, 1]⟩
abbrev S256x8 : Shape := ⟨2, ![256, 8]⟩
abbrev S8x256 : Shape := ⟨2, ![8, 256]⟩
abbrev S256x1 : Shape := ⟨2, ![256, 1]⟩
abbrev S256x65536 : Shape := ⟨2, ![256, 65536]⟩
abbrev S2048x512 : Shape := ⟨2, ![2048, 512]⟩
abbrev S256x2048 : Shape := ⟨2, ![256, 2048]⟩
abbrev S8x2048 : Shape := ⟨2, ![8, 2048]⟩
abbrev S2048 : Shape := ⟨1, ![2048]⟩
abbrev S1x2048 : Shape := ⟨2, ![1, 2048]⟩
abbrev S1x256x65536x1 : Shape := ⟨4, ![1, 256, 65536, 1]⟩

abbrev nBuf : Space → Nat
  | .hbm => 14
  | .vmem => 11
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256x1x1, .f32⟩
  | .hbm, ⟨6, _⟩ => ⟨S256x8, .f32⟩
  | .hbm, ⟨7, _⟩ => ⟨S8x256, .f32⟩
  | .hbm, ⟨8, _⟩ => ⟨S256x1, .f32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S256x65536, .f32⟩
  | .hbm, ⟨13, _⟩ => ⟨S1x256x65536x1, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x8, .f32⟩
  | .local _ .vmem, ⟨8, _⟩ => ⟨S8x256, .f32⟩
  | .local _ .vmem, ⟨9, _⟩ => ⟨S256x2048, .f32⟩
  | .local _ .vmem, ⟨10, _⟩ => ⟨S256x2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S256x1 : S256.ShapeCasts S256x1
  shapeCasts_S1x256x1x1_S256x1 : S1x256x1x1.ShapeCasts S256x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S256x8_S256x8_0_0 : ∀ a, (![0, 0] : Fin 2 → Nat) a + S256x8.size a ≤ S256x8.size a
  h_S256x8 : 0 < S256x8.numel
  inb_S8x256_S8x256_0_0 : ∀ a, (![0, 0] : Fin 2 → Nat) a + S8x256.size a ≤ S8x256.size a
  h_S8x256 : 0 < S8x256.numel
  reduces_S256x2048_S2048 : S256x2048.Reduces [0] S2048
  shapeCasts_S2048_S1x2048 : S2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S256x65536_S1x256x65536x1 : S256x65536.ShapeCasts S1x256x65536x1
  dot_S256x512_S2048x512_S256x2048_1_1_0_0_n_n_wf : DotDims.WF S256x512 S2048x512 S256x2048 [1] [1] [0] [0] [] []
  dot_S8x256_S256x2048_S8x2048_1_0_0_1_n_n_wf : DotDims.WF S8x256 S256x2048 S8x2048 [1] [0] [0] [1] [] []
  dot_S256x8_S8x2048_S256x2048_1_0_0_1_n_n_wf : DotDims.WF S256x8 S8x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S256x8.size a
  hwx0_6 : ∀ i : grid0.Coords, EltTy.bits .f32 = 32 ∨ (Rect.block (s := S256x8) S256x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .f32 = 32 ∨ (Rect.block (s := S8x256) S8x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S256x65536.size a
  hwx0_8 : ∀ i : grid0.Coords, EltTy.bits .f32 = 32 ∨ (Rect.block (s := S256x65536) S256x2048.size (cc0_transform_8 i) (hinb0_8 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf
def dot_S256x8_S8x2048_S256x2048_1_0_0_1_n_n : DotDims S256x8 S8x2048 S256x2048 where
  lhsContracting := [1]
  rhsContracting := [0]
  lhsNonContracting := [0]
  rhsNonContracting := [1]
  lhsBatch := []
  rhsBatch := []
  wf := dot_S256x8_S8x2048_S256x2048_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S256x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst_0) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S256 : Shape := ⟨1, ![256]⟩
abbrev S1x256x1x1 : Shape := ⟨4, ![1, 256, 1, 1]⟩
abbrev S65536x256 : Shape := ⟨2, ![65536, 256]⟩
abbrev S1x256 : Shape := ⟨2, ![1, 256]⟩
abbrev S65536x8x32 : Shape := ⟨3, ![65536, 8, 32]⟩
abbrev S_ : Shape := ⟨0, ![]⟩
abbrev S65536x8 : Shape := ⟨2, ![65536, 8]⟩
abbrev S65536x8x1 : Shape := ⟨3, ![65536, 8, 1]⟩
abbrev S65536 : Shape := ⟨1, ![65536]⟩
abbrev S65536x1 : Shape := ⟨2, ![65536, 1]⟩
abbrev S1x1x65536x1 : Shape := ⟨4, ![1, 1, 65536, 1]⟩
abbrev S1x256x65536x1 : Shape := ⟨4, ![1, 256, 65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256x1x1, .f32⟩
  | .hbm, ⟨6, _⟩ => ⟨S65536x256, .f32⟩
  | .hbm, ⟨7, _⟩ => ⟨S1x256, .f32⟩
  | .hbm, ⟨8, _⟩ => ⟨S65536x256, .f32⟩
  | .hbm, ⟨9, _⟩ => ⟨S65536x256, .f32⟩
  | .hbm, ⟨10, _⟩ => ⟨S65536x8x32, .f32⟩
  | .hbm, ⟨11, _⟩ => ⟨S_, .f32⟩
  | .hbm, ⟨12, _⟩ => ⟨S65536x8, .f32⟩
  | .hbm, ⟨13, _⟩ => ⟨S65536x8x1, .f32⟩
  | .hbm, ⟨14, _⟩ => ⟨S_, .f32⟩
  | .hbm, ⟨15, _⟩ => ⟨S65536x8x1, .f32⟩
  | .hbm, ⟨16, _⟩ => ⟨S65536x8x1, .f32⟩
  | .hbm, ⟨17, _⟩ => ⟨S65536x8x32, .f32⟩
  | .hbm, ⟨18, _⟩ => ⟨S65536x8x32, .f32⟩
  | .hbm, ⟨19, _⟩ => ⟨S65536x8x32, .f32⟩
  | .hbm, ⟨20, _⟩ => ⟨S_, .f32⟩
  | .hbm, ⟨21, _⟩ => ⟨S65536x8, .f32⟩
  | .hbm, ⟨22, _⟩ => ⟨S65536x8x1, .f32⟩
  | .hbm, ⟨23, _⟩ => ⟨S_, .f32⟩
  | .hbm, ⟨24, _⟩ => ⟨S65536x8x1, .f32⟩
  | .hbm, ⟨25, _⟩ => ⟨S65536x8x1, .f32⟩
  | .hbm, ⟨26, _⟩ => ⟨S65536x8x32, .f32⟩
  | .hbm, ⟨27, _⟩ => ⟨S65536x8x32, .f32⟩
  | .hbm, ⟨28, _⟩ => ⟨S_, .f32⟩
  | .hbm, ⟨29, _⟩ => ⟨S65536x8x1, .f32⟩
  | .hbm, ⟨30, _⟩ => ⟨S65536x8x1, .f32⟩
  | .hbm, ⟨31, _⟩ => ⟨S65536x8x1, .f32⟩
  | .hbm, ⟨32, _⟩ => ⟨S65536x8x32, .f32⟩
  | .hbm, ⟨33, _⟩ => ⟨S65536x8x32, .f32⟩
  | .hbm, ⟨34, _⟩ => ⟨S65536x256, .f32⟩
  | .hbm, ⟨35, _⟩ => ⟨S1x256, .f32⟩
  | .hbm, ⟨36, _⟩ => ⟨S65536x256, .f32⟩
  | .hbm, ⟨37, _⟩ => ⟨S65536x256, .f32⟩
  | .hbm, ⟨38, _⟩ => ⟨S1x256, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S1x1x65536x1, .f32⟩
  | .hbm, ⟨45, _⟩ => ⟨S1x256x65536x1, .f32⟩
  | .hbm, ⟨46, _⟩ => ⟨S1x256x65536x1, .f32⟩
  | .hbm, ⟨47, _⟩ => ⟨S1x256x65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x8x32 : S65536x256.ShapeCasts S65536x8x32
  reducesTo_S65536x8x32_S65536x8_d2 : S65536x8x32.ReducesTo [2] S65536x8
  h_S_ : 0 < S_.numel
  bcast_S65536x8_S65536x8x1_0_1 : S65536x8.BroadcastsInDim S65536x8x1 (![0, 1] : Fin 2 → Fin S65536x8x1.rank)
  bcast_S_S65536x8x1 : S_.BroadcastsInDim S65536x8x1 (![] : Fin 0 → Fin S65536x8x1.rank)
  bcast_S65536x8x1_S65536x8x32_0_1_2 : S65536x8x1.BroadcastsInDim S65536x8x32 (![0, 1, 2] : Fin 3 → Fin S65536x8x32.rank)
  shapeCasts_S65536x8x32_S65536x256 : S65536x8x32.ShapeCasts S65536x256
  reducesTo_S65536x256_S65536_d1 : S65536x256.ReducesTo [1] S65536
  bcast_S65536_S65536x1_0 : S65536.BroadcastsInDim S65536x1 (![0] : Fin 1 → Fin S65536x1.rank)
  bcast_S65536x1_S1x1x65536x1_2_3 : S65536x1.BroadcastsInDim S1x1x65536x1 (![2, 3] : Fin 2 → Fin S1x1x65536x1.rank)
  bcast_S1x1x65536x1_S1x256x65536x1_0_1_2_3 : S1x1x65536x1.BroadcastsInDim S1x256x65536x1 (![0, 1, 2, 3] : Fin 4 → Fin S1x256x65536x1.rank)
  bcast_S1x256x1x1_S1x256x65536x1_0_1_2_3 : S1x256x1x1.BroadcastsInDim S1x256x65536x1 (![0, 1, 2, 3] : Fin 4 → Fin S1x256x65536x1.rank)
  dot_S65536x512_S256x512_S65536x256_1_1_0_0_n_n_wf : DotDims.WF S65536x512 S256x512 S65536x256 [1] [1] [0] [0] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf

class Facts : Prop extends Facts₀ where

variable [Facts]
-- ==== Proof.Spec.lean ====
/-
  The function both programs compute, for one batch row.

  A row of 512 inputs goes through a linear layer to 256 channels: channel o is the row's inner product with row o of
  the weight matrix, plus that channel's bias. The 256 channels form 8 groups of 32 consecutive ones. Each channel is
  centred by its group's mean, multiplied by the reciprocal square root of its group's variance plus a small constant,
  then by its own scale, and shifted by its own offset. The row's value is the least of the 256 normalized channels,
  and output channel o adds its own bias to that least value.

  One program forms a group's sum by reshaping the channels to 8 x 32 and summing the short axis, and divides by 32.
  The other multiplies the channel vector by a 0/1 matrix whose row g marks the channels of group g, multiplies by
  1/32, and carries the group's value back to its channels by the transposed 0/1 matrix. The three laws at the end say
  that these are the same on the extended reals: a 0/1-weighted sum over all channels is the sum over the marked group,
  a 0/1-weighted sum over the groups picks the channel's own group, and multiplying by 1/32 is dividing by 32. None of
  them needs the summands to be finite: zero times anything is zero there, and addition is commutative and
  associative.
-/
import Idealize.ShloMosaic.PureOps.Ideal
import Idealize.ShloMosaic.PureOps.Ideal.Laws

noncomputable section

open scoped BigOperators

namespace Cert.GroupNormMin

open Idealize.ShloMosaic

/-- Channel j of group g: the groups are runs of 32 consecutive channels. -/
def chan (g : Fin 8) (j : Fin 32) : Fin 256 :=
  ⟨g.val * 32 + j.val, by have := g.isLt; have := j.isLt; omega⟩

/-- The group a channel lies in. -/
def grp (o : Fin 256) : Fin 8 := ⟨o.val / 32, by have := o.isLt; omega⟩

theorem grp_chan (g : Fin 8) (j : Fin 32) : grp (chan g j) = g :=
  Fin.ext (by show (g.val * 32 + j.val) / 32 = g.val; have := j.isLt; omega)

/-- The 0/1 entry marking that channel o belongs to group g. -/
def mark (o : Fin 256) (g : Fin 8) : EReal := if grp o = g then 1 else 0

/-- The linear layer at channel o. -/
def lin (xr : Fin 512 → EReal) (w : Fin 256 → Fin 512 → EReal) (bl : Fin 256 → EReal) (o : Fin 256) : EReal :=
  (∑ k : Fin 512, xr k * w o k) + bl o

/-- A group's mean: the sum of its 32 channels, started from zero, divided by 32. -/
def gmean (h : Fin 256 → EReal) (g : Fin 8) : EReal :=
  Ideal.div (Ideal.ofBits .f32 0x00000000#32 + ∑ j : Fin 32, h (chan g j)) (Ideal.ofBits .f32 0x42000000#32)

/-- A channel less its group's mean. -/
def cen (h : Fin 256 → EReal) (o : Fin 256) : EReal := h o - gmean h (grp o)

/-- A group's variance: the mean of the squares of its centred channels. -/
def gvar (h : Fin 256 → EReal) (g : Fin 8) : EReal :=
  Ideal.div (Ideal.ofBits .f32 0x00000000#32 + ∑ j : Fin 32, cen h (chan g j) * cen h (chan g j))
    (Ideal.ofBits .f32 0x42000000#32)

/-- The normalized, scaled and shifted channel. -/
def gn (h wgn bgn : Fin 256 → EReal) (o : Fin 256) : EReal :=
  cen h o * Ideal.rsqrt (gvar h (grp o) + Ideal.ofBits .f32 0x3727C5AC#32) * wgn o + bgn o

/-- The least normalized channel of the row, the fold of min starting from plus infinity. -/
def rowMin (h wgn bgn : Fin 256 → EReal) : EReal :=
  (Finset.univ : Finset (Fin 256)).fold min (Ideal.ofBits .f32 0x7F800000#32) (gn h wgn bgn)

/-- The result at output channel o for a row. -/
def out (xr : Fin 512 → EReal) (w : Fin 256 → Fin 512 → EReal) (bl wgn bgn bias : Fin 256 → EReal) (o : Fin 256) : EReal :=
  rowMin (lin xr w bl) wgn bgn + bias o

/-! ## The three laws -/

/-- A 0/1-weighted sum over the 8 groups picks the channel's own group. -/
theorem sum_mark_groups (μ : Fin 8 → EReal) (o : Fin 256) : ∑ g : Fin 8, mark o g * μ g = μ (grp o) := by
  unfold mark
  simp only [ite_mul, one_mul, zero_mul, Finset.sum_ite_eq, Finset.mem_univ, if_true]

/-- A 0/1-weighted sum over all 256 channels is the sum over the 32 channels of the marked group. -/
theorem sum_mark_channels (f : Fin 256 → EReal) (g : Fin 8) :
    ∑ o : Fin 256, mark o g * f o = ∑ j : Fin 32, f (chan g j) := by
  have e : ∀ p : Fin 8 × Fin 32, (finProdFinEquiv p : Fin 256) = chan p.1 p.2 := fun p =>
    Fin.ext (by show p.2.val + 32 * p.1.val = p.1.val * 32 + p.2.val; omega)
  rw [← Equiv.sum_comp (finProdFinEquiv : Fin 8 × Fin 32 ≃ Fin 256), Fintype.sum_prod_type]
  simp only [e, mark, grp_chan, ite_mul, one_mul, zero_mul]
  rw [Finset.sum_eq_single g]
  · simp
  · intro g' _ hne; simp [hne]
  · intro h; exact absurd (Finset.mem_univ g) h

theorem ofBits_32 : Ideal.ofBits .f32 0x42000000#32 = ((32 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_one : Ideal.ofBits .f32 0x3F800000#32 = (1 : EReal) := by
  simp [Ideal.ofBits, Ideal.ieee, -EReal.coe_mul]; norm_num

/-- Multiplying by the word 1/32 is dividing by the word 32, on every extended real. -/
theorem mul_inv32 (s : EReal) :
    s * Ideal.ofBits .f32 0x3D000000#32 = Ideal.div s (Ideal.ofBits .f32 0x42000000#32) := by
  rw [ofBits_32, ofBits_inv32, Ideal.div_coe (by norm_num : (32 : ℝ) ≠ 0)]

end Cert.GroupNormMin

end
-- ==== Proof.LibMinAxis.lean ====
/-
  Two readings a value proof over the extended reals needs and the library does not state.

  A minimum reduction over ONE axis of a vector of any rank, read at a result index, is the fold of `min`, from the
  accumulator's value, over that axis's coordinates (the maximum's analogue is in the library). And a vector with two
  leading unit axes, [1, 1, a], cast to [a] or back, keeps each entry: (0, 0, i) ↔ i.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Idealize.ShloMosaic.MinAxis

open Idealize.ShloMosaic Idealize.ShloMosaic.ValueIdx

/-! ## A minimum over one axis -/

/-- A minimum reduction over ONE axis, over the extended reals: the fold of `min`, from the accumulator's value, over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## Two leading unit axes added to or dropped from a vector -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a]` array cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; omega)

end Layout

end Idealize.ShloMosaic.MinAxis

end
-- ==== Proof.Payload.lean ====
/-
  What one grid point stores, read at an index.

  A point holds a block of 2048 batch rows. Entry (o, b) of what it stores is the specified result at output channel o
  for row b of the block: the linear layer, the group statistics formed with the two 0/1 matrices, the normalization,
  the least normalized channel over the 256 channels, and the bias of channel o. The 0/1 matrices enter only through
  their entries, so the statement takes those entries as hypotheses.
-/
import proofs.«118542_j66924180406504_1_alg».proof.Proof.Gen.KernelIdeal.Skeleton
import proofs.«118542_j66924180406504_1_alg».proof.Proof.Spec
import proofs.«118542_j66924180406504_1_alg».proof.Proof.LibMinAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GroupNormMin.Payload

open Idealize.ShloMosaic Idealize.ShloMosaic.ValueIdx Cert.KernelIdeal Cert.KernelIdeal.Gen Cert.GroupNormMin

variable [Cert.KernelIdeal.Facts]

/-! ## The first product: both operands contract their second axis -/

theorem lhs_lin_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_lin_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_lin_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_lin_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- Entry (o, b) of the first product is the inner product of row o of the left operand with row b of the right. -/
theorem matmul_lin_apply {φ₁ φ₂ : FTy} (p : Option ContractPrecision) (l : FVec Ideal S256x512 φ₁) (r : FVec Ideal S2048x512 φ₂)
    (o : Fin 256) (b : Fin 2048) :
    matmul dot_S256x512_S2048x512_S256x2048_1_1_0_0_n_n p l r (constant (F := Ideal) S256x2048 .f32 0x00000000#32) (ix2 o b)
      = ∑ k : Fin 512, l (ix2 o k) * r (ix2 b k) := by
  simp only [matmul]
  rw [Ideal.matmul_constant_zero_apply, ← Equiv.sum_comp (ValueIdx.contrEquiv1 dot_S256x512_S2048x512_S256x2048_1_1_0_0_n_n 512 rfl rfl).symm]
  refine Finset.sum_congr rfl fun k _ => ?_
  have hk := ValueIdx.contrEquiv1_symm_val dot_S256x512_S2048x512_S256x2048_1_1_0_0_n_n 512 rfl rfl k
  have el : dot_S256x512_S2048x512_S256x2048_1_1_0_0_n_n.lhsIdx (ix2 o b) ((ValueIdx.contrEquiv1 dot_S256x512_S2048x512_S256x2048_1_1_0_0_n_n 512 rfl rfl).symm k) = ix2 o k := funext fun a => Fin.ext (by
    match a with
    | ⟨0, _⟩ => exact lhs_lin_0 _ _
    | ⟨1, _⟩ => exact (lhs_lin_1 _ _).trans hk)
  have er : dot_S256x512_S2048x512_S256x2048_1_1_0_0_n_n.rhsIdx (ix2 o b) ((ValueIdx.contrEquiv1 dot_S256x512_S2048x512_S256x2048_1_1_0_0_n_n 512 rfl rfl).symm k) = ix2 b k := funext fun a => Fin.ext (by
    match a with
    | ⟨0, _⟩ => exact rhs_lin_0 _ _
    | ⟨1, _⟩ => exact (rhs_lin_1 _ _).trans hk)
  rw [el, er]

/-! ## The two products with the 0/1 matrices: rows times columns -/

theorem lhs_gather_0 (i : S8x2048.Idx) (q : dot_S8x256_S256x2048_S8x2048_1_0_0_1_n_n.contr.Idx) :
    (dot_S8x256_S256x2048_S8x2048_1_0_0_1_n_n.lhsIdx i q 0).val = (i 0).val := by
  unfold DotDims.lhsIdx
  rw [dif_neg (show ¬(0 : Fin S8x256.rank) ∈ dot_S8x256_S256x2048_S8x2048_1_0_0_1_n_n.lhsBatch by decide), dif_pos (show (0 : Fin S8x256.rank) ∈ dot_S8x256_S256x2048_S8x2048_1_0_0_1_n_n.lhsNonContracting by decide)]
  rfl
theorem lhs_gather_1 (i : S8x2048.Idx) (q : dot_S8x256_S256x2048_S8x2048_1_0_0_1_n_n.contr.Idx) :
    (dot_S8x256_S256x2048_S8x2048_1_0_0_1_n_n.lhsIdx i q 1).val = (q ⟨0, by decide⟩).val :=
  dot_S8x256_S256x2048_S8x2048_1_0_0_1_n_n.lhsIdx_val_of_single rfl i q
theorem rhs_gather_0 (i : S8x2048.Idx) (q : dot_S8x256_S256x2048_S8x2048_1_0_0_1_n_n.contr.Idx) :
    (dot_S8x256_S256x2048_S8x2048_1_0_0_1_n_n.rhsIdx i q 0).val = (q ⟨0, by decide⟩).val :=
  dot_S8x256_S256x2048_S8x2048_1_0_0_1_n_n.rhsIdx_val_of_single rfl i q
theorem rhs_gather_1 (i : S8x2048.Idx) (q : dot_S8x256_S256x2048_S8x2048_1_0_0_1_n_n.contr.Idx) :
    (dot_S8x256_S256x2048_S8x2048_1_0_0_1_n_n.rhsIdx i q 1).val = (i 1).val := by
  unfold DotDims.rhsIdx
  rw [dif_neg (show ¬(1 : Fin S256x2048.rank) ∈ dot_S8x256_S256x2048_S8x2048_1_0_0_1_n_n.rhsBatch by decide), dif_pos (show (1 : Fin S256x2048.rank) ∈ dot_S8x256_S256x2048_S8x2048_1_0_0_1_n_n.rhsNonContracting by decide)]
  rfl

/-- Entry (g, b) of the 8 x 256 product is the sum over the 256 channels of the left row g times the right column b. -/
theorem matmul_gather_apply {φ₁ φ₂ : FTy} (p : Option ContractPrecision) (l : FVec Ideal S8x256 φ₁) (r : FVec Ideal S256x2048 φ₂)
    (a : Fin 8) (c : Fin 2048) :
    matmul dot_S8x256_S256x2048_S8x2048_1_0_0_1_n_n p l r (constant (F := Ideal) S8x2048 .f32 0x00000000#32) (ix2 a c)
      = ∑ k : Fin 256, l (ix2 a k) * r (ix2 k c) := by
  simp only [matmul]
  rw [Ideal.matmul_constant_zero_apply, ← Equiv.sum_comp (ValueIdx.contrEquiv1 dot_S8x256_S256x2048_S8x2048_1_0_0_1_n_n 256 rfl rfl).symm]
  refine Finset.sum_congr rfl fun k _ => ?_
  have hk := ValueIdx.contrEquiv1_symm_val dot_S8x256_S256x2048_S8x2048_1_0_0_1_n_n 256 rfl rfl k
  have el : dot_S8x256_S256x2048_S8x2048_1_0_0_1_n_n.lhsIdx (ix2 a c) ((ValueIdx.contrEquiv1 dot_S8x256_S256x2048_S8x2048_1_0_0_1_n_n 256 rfl rfl).symm k) = ix2 a k := funext fun d => Fin.ext (by
    match d with
    | ⟨0, _⟩ => exact lhs_gather_0 _ _
    | ⟨1, _⟩ => exact (lhs_gather_1 _ _).trans hk)
  have er : dot_S8x256_S256x2048_S8x2048_1_0_0_1_n_n.rhsIdx (ix2 a c) ((ValueIdx.contrEquiv1 dot_S8x256_S256x2048_S8x2048_1_0_0_1_n_n 256 rfl rfl).symm k) = ix2 k c := funext fun d => Fin.ext (by
    match d with
    | ⟨0, _⟩ => exact (rhs_gather_0 _ _).trans hk
    | ⟨1, _⟩ => exact rhs_gather_1 _ _)
  rw [el, er]

theorem lhs_spread_0 (i : S256x2048.Idx) (q : dot_S256x8_S8x2048_S256x2048_1_0_0_1_n_n.contr.Idx) :
    (dot_S256x8_S8x2048_S256x2048_1_0_0_1_n_n.lhsIdx i q 0).val = (i 0).val := by
  unfold DotDims.lhsIdx
  rw [dif_neg (show ¬(0 : Fin S256x8.rank) ∈ dot_S256x8_S8x2048_S256x2048_1_0_0_1_n_n.lhsBatch by decide), dif_pos (show (0 : Fin S256x8.rank) ∈ dot_S256x8_S8x2048_S256x2048_1_0_0_1_n_n.lhsNonContracting by decide)]
  rfl
theorem lhs_spread_1 (i : S256x2048.Idx) (q : dot_S256x8_S8x2048_S256x2048_1_0_0_1_n_n.contr.Idx) :
    (dot_S256x8_S8x2048_S256x2048_1_0_0_1_n_n.lhsIdx i q 1).val = (q ⟨0, by decide⟩).val :=
  dot_S256x8_S8x2048_S256x2048_1_0_0_1_n_n.lhsIdx_val_of_single rfl i q
theorem rhs_spread_0 (i : S256x2048.Idx) (q : dot_S256x8_S8x2048_S256x2048_1_0_0_1_n_n.contr.Idx) :
    (dot_S256x8_S8x2048_S256x2048_1_0_0_1_n_n.rhsIdx i q 0).val = (q ⟨0, by decide⟩).val :=
  dot_S256x8_S8x2048_S256x2048_1_0_0_1_n_n.rhsIdx_val_of_single rfl i q
theorem rhs_spread_1 (i : S256x2048.Idx) (q : dot_S256x8_S8x2048_S256x2048_1_0_0_1_n_n.contr.Idx) :
    (dot_S256x8_S8x2048_S256x2048_1_0_0_1_n_n.rhsIdx i q 1).val = (i 1).val := by
  unfold DotDims.rhsIdx
  rw [dif_neg (show ¬(1 : Fin S8x2048.rank) ∈ dot_S256x8_S8x2048_S256x2048_1_0_0_1_n_n.rhsBatch by decide), dif_pos (show (1 : Fin S8x2048.rank) ∈ dot_S256x8_S8x2048_S256x2048_1_0_0_1_n_n.rhsNonContracting by decide)]
  rfl

/-- Entry (o, b) of the 256 x 8 product is the sum over the 8 groups of the left row o times the right column b. -/
theorem matmul_spread_apply {φ₁ φ₂ : FTy} (p : Option ContractPrecision) (l : FVec Ideal S256x8 φ₁) (r : FVec Ideal S8x2048 φ₂)
    (a : Fin 256) (c : Fin 2048) :
    matmul dot_S256x8_S8x2048_S256x2048_1_0_0_1_n_n p l r (constant (F := Ideal) S256x2048 .f32 0x00000000#32) (ix2 a c)
      = ∑ k : Fin 8, l (ix2 a k) * r (ix2 k c) := by
  simp only [matmul]
  rw [Ideal.matmul_constant_zero_apply, ← Equiv.sum_comp (ValueIdx.contrEquiv1 dot_S256x8_S8x2048_S256x2048_1_0_0_1_n_n 8 rfl rfl).symm]
  refine Finset.sum_congr rfl fun k _ => ?_
  have hk := ValueIdx.contrEquiv1_symm_val dot_S256x8_S8x2048_S256x2048_1_0_0_1_n_n 8 rfl rfl k
  have el : dot_S256x8_S8x2048_S256x2048_1_0_0_1_n_n.lhsIdx (ix2 a c) ((ValueIdx.contrEquiv1 dot_S256x8_S8x2048_S256x2048_1_0_0_1_n_n 8 rfl rfl).symm k) = ix2 a k := funext fun d => Fin.ext (by
    match d with
    | ⟨0, _⟩ => exact lhs_spread_0 _ _
    | ⟨1, _⟩ => exact (lhs_spread_1 _ _).trans hk)
  have er : dot_S256x8_S8x2048_S256x2048_1_0_0_1_n_n.rhsIdx (ix2 a c) ((ValueIdx.contrEquiv1 dot_S256x8_S8x2048_S256x2048_1_0_0_1_n_n 8 rfl rfl).symm k) = ix2 k c := funext fun d => Fin.ext (by
    match d with
    | ⟨0, _⟩ => exact (rhs_spread_0 _ _).trans hk
    | ⟨1, _⟩ => exact rhs_spread_1 _ _)
  rw [el, er]

/-! ## Layout steps read at an index -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The minimum over the 256 channels of a 256 x 2048 block, read at column b: the fold of min from the
    accumulator's value over the channels of that column. -/
theorem min_channels_apply (src : FVec Ideal S256x2048 .f32) (b : Fin 2048) :
    multiReduction (F := Ideal) .minimumf [0] S2048 src 0x7F800000#32 reduces_S256x2048_S2048 (.inl rfl) rfl (ix1 b)
      = (Finset.univ : Finset (Fin 256)).fold min (Ideal.ofBits .f32 0x7F800000#32) (fun o' => src (ix2 o' b)) := by
  refine (MinAxis.multiReduction_minimumf_single src _ reduces_S256x2048_S2048 (.inl rfl) rfl (ix1 b)).trans ?_
  refine congrArg (Finset.fold min (Ideal.ofBits .f32 0x7F800000#32) · Finset.univ) ?_
  funext o'
  show src _ = src _
  refine congrArg src (funext fun d => Fin.ext ?_)
  match d with
  | ⟨0, _⟩ => rfl
  | ⟨1, _⟩ => rfl

/-! ## The stored block in stages

The block is built from four vector-level steps: the linear layer's block, a group's mean of a block's columns (the
8 x 256 product with the 0/1 matrix, times the word 1/32), a group value carried back to its channels (the 256 x 8
product), and from these the centred and the normalized block. Each is read at an index below. -/

/-- The linear layer's block: entry (o, b) is channel o of row b. -/
def linBlock (x0 : FVec Ideal S2048x512 .f32) (x1 : FVec Ideal S256x512 .f32) (x2 : FVec Ideal S256x1 .f32) :
    FVec Ideal S256x2048 .f32 :=
  addf (matmul dot_S256x512_S2048x512_S256x2048_1_1_0_0_n_n none (truncf .bf16 x1 bitsLt_bf16_f32)
      (truncf .bf16 x0 bitsLt_bf16_f32) (constant (F := Ideal) S256x2048 .f32 0x00000000#32))
    (broadcastTo S256x2048 (shapeCast S256x1 x2 shapeCasts_S256x1_S256x1) broadcasts_S256x1_S256x2048)

/-- The per-group means of a block's columns: the product with the 8 x 256 matrix of 0/1 entries, times the word 1/32. -/
def meanBlock (x7 : FVec Ideal S8x256 .f32) (h : FVec Ideal S256x2048 .f32) : FVec Ideal S8x2048 .f32 :=
  mulf (matmul dot_S8x256_S256x2048_S8x2048_1_0_0_1_n_n (some .fp32) x7 h (constant (F := Ideal) S8x2048 .f32 0x00000000#32))
    (broadcast S8x2048 (Scalar.ofBits (F := Ideal) .f32 0x3D000000#32))

/-- A per-group block carried back to the channels: the product with the 256 x 8 matrix of 0/1 entries. -/
def spreadBlock (x6 : FVec Ideal S256x8 .f32) (m : FVec Ideal S8x2048 .f32) : FVec Ideal S256x2048 .f32 :=
  matmul dot_S256x8_S8x2048_S256x2048_1_0_0_1_n_n (some .fp32) x6 m (constant (F := Ideal) S256x2048 .f32 0x00000000#32)

/-- A block less its groups' means. -/
def cenBlock (x6 : FVec Ideal S256x8 .f32) (x7 : FVec Ideal S8x256 .f32) (h : FVec Ideal S256x2048 .f32) :
    FVec Ideal S256x2048 .f32 :=
  subf h (spreadBlock x6 (meanBlock x7 h))

/-- The normalized, scaled and shifted block. -/
def normBlock (x6 : FVec Ideal S256x8 .f32) (x7 : FVec Ideal S8x256 .f32) (x3 x4 : FVec Ideal S256x1 .f32)
    (h : FVec Ideal S256x2048 .f32) : FVec Ideal S256x2048 .f32 :=
  addf
    (mulf
      (mulf (cenBlock x6 x7 h)
        (rsqrt (addf (spreadBlock x6 (meanBlock x7 (mulf (cenBlock x6 x7 h) (cenBlock x6 x7 h))))
          (broadcast S256x2048 (Scalar.ofBits (F := Ideal) .f32 0x3727C5AC#32)))))
      (broadcastTo S256x2048 (shapeCast S256x1 x3 shapeCasts_S256x1_S256x1) broadcasts_S256x1_S256x2048))
    (broadcastTo S256x2048 (shapeCast S256x1 x4 shapeCasts_S256x1_S256x1) broadcasts_S256x1_S256x2048)

/-- The row a grid point computes first is the row of column minima of the normalized block of the linear layer's block. -/
theorem pay2_eq (x0 : Vec Ideal S2048x512 .f32) (x1 : Vec Ideal S256x512 .f32) (x2 x3 x4 : Vec Ideal S256x1 .f32)
    (x6 : Vec Ideal S256x8 .f32) (x7 : Vec Ideal S8x256 .f32) :
    k0_pay2 (F := Ideal) x0 x1 x2 x6 x7 x3 x4
      = shapeCast S1x2048
          (multiReduction (F := Ideal) .minimumf [0] S2048 (normBlock x6 x7 x3 x4 (linBlock x0 x1 x2)) 0x7F800000#32
            reduces_S256x2048_S2048 (.inl rfl) rfl)
          shapeCasts_S2048_S1x2048 := rfl

/-! ## The stages read at an index -/

/-- The reciprocal square root of a block at an index is that of the entry. -/
theorem rsqrt_apply {s : Shape} {φ : FTy} (v : FVec Ideal s φ) (i : s.Idx) : rsqrt v i = Ideal.rsqrt (v i) := rfl

/-- A float word as a scalar is the extended real the word encodes. -/
theorem scalar_ofBits (w : BitVec 32) : Scalar.ofBits (F := Ideal) .f32 w = Ideal.ofBits .f32 w := rfl

/-- Entry (o, b) of the linear layer's block is the specification's linear layer at channel o, for row b. -/
theorem linBlock_apply (x0 : FVec Ideal S2048x512 .f32) (x1 : FVec Ideal S256x512 .f32) (x2 : FVec Ideal S256x1 .f32)
    (o : Fin 256) (b : Fin 2048) :
    linBlock x0 x1 x2 (ix2 o b)
      = lin (fun k => x0 (ix2 b k)) (fun o' k => x1 (ix2 o' k)) (fun o' => x2 (ix2 o' (0 : Fin 1))) o := by
  unfold linBlock lin
  rw [addf_apply, matmul_lin_apply, shapeCast_self, broadcastTo_a1_ab_apply]
  refine congrArg (· + x2 (ix2 o (0 : Fin 1))) (Finset.sum_congr rfl fun k _ => ?_)
  rw [truncf_apply, truncf_apply]
  exact mul_comm _ _

/-- Entry (g, b) of the group means of a block is the mean of group g of column b: the 0/1-weighted sum over all
    channels is the sum over the group, and multiplying by the word 1/32 is dividing by the word 32. -/
theorem meanBlock_apply (x7 : FVec Ideal S8x256 .f32) (h7 : ∀ (g : Fin 8) (o : Fin 256), x7 (ix2 g o) = mark o g)
    (h : FVec Ideal S256x2048 .f32) (g : Fin 8) (b : Fin 2048) :
    meanBlock x7 h (ix2 g b) = gmean (fun o' => h (ix2 o' b)) g := by
  unfold meanBlock gmean
  rw [mulf_apply, matmul_gather_apply, broadcast_apply, scalar_ofBits, mul_inv32, Ideal.ofBits_zero_f32, zero_add]
  refine congrArg (Ideal.div · (Ideal.ofBits .f32 0x42000000#32)) ?_
  refine Eq.trans ?_ (sum_mark_channels (fun o' => h (ix2 o' b)) g)
  exact Finset.sum_congr rfl fun k _ => by rw [h7]

/-- Entry (o, b) of a group block carried back to the channels is the entry of o's own group. -/
theorem spreadBlock_apply (x6 : FVec Ideal S256x8 .f32) (h6 : ∀ (o : Fin 256) (g : Fin 8), x6 (ix2 o g) = mark o g)
    (m : FVec Ideal S8x2048 .f32) (o : Fin 256) (b : Fin 2048) :
    spreadBlock x6 m (ix2 o b) = m (ix2 (grp o) b) := by
  unfold spreadBlock
  rw [matmul_spread_apply]
  refine Eq.trans ?_ (sum_mark_groups (fun g => m (ix2 g b)) o)
  exact Finset.sum_congr rfl fun g _ => by rw [h6]

/-- Entry (o, b) of the centred block is the centred channel o of column b. -/
theorem cenBlock_apply (x6 : FVec Ideal S256x8 .f32) (x7 : FVec Ideal S8x256 .f32)
    (h6 : ∀ (o : Fin 256) (g : Fin 8), x6 (ix2 o g) = mark o g) (h7 : ∀ (g : Fin 8) (o : Fin 256), x7 (ix2 g o) = mark o g)
    (h : FVec Ideal S256x2048 .f32) (o : Fin 256) (b : Fin 2048) :
    cenBlock x6 x7 h (ix2 o b) = cen (fun o' => h (ix2 o' b)) o := by
  unfold cenBlock cen
  rw [subf_apply, spreadBlock_apply x6 h6, meanBlock_apply x7 h7]

/-- Entry (g, b) of the group means of the squared centred block is the variance of group g of column b. -/
theorem varBlock_apply (x6 : FVec Ideal S256x8 .f32) (x7 : FVec Ideal S8x256 .f32)
    (h6 : ∀ (o : Fin 256) (g : Fin 8), x6 (ix2 o g) = mark o g) (h7 : ∀ (g : Fin 8) (o : Fin 256), x7 (ix2 g o) = mark o g)
    (h : FVec Ideal S256x2048 .f32) (g : Fin 8) (b : Fin 2048) :
    meanBlock x7 (mulf (cenBlock x6 x7 h) (cenBlock x6 x7 h)) (ix2 g b) = gvar (fun o' => h (ix2 o' b)) g := by
  rw [meanBlock_apply x7 h7]
  unfold gmean gvar
  refine congrArg (fun s => Ideal.div (Ideal.ofBits .f32 0x00000000#32 + s) (Ideal.ofBits .f32 0x42000000#32)) ?_
  refine Finset.sum_congr rfl fun j _ => ?_
  show mulf (cenBlock x6 x7 h) (cenBlock x6 x7 h) (ix2 (chan g j) b) = _
  rw [mulf_apply, cenBlock_apply x6 x7 h6 h7]

/-- Entry (o, b) of the normalized block is the normalized, scaled and shifted channel o of column b. -/
theorem normBlock_apply (x6 : FVec Ideal S256x8 .f32) (x7 : FVec Ideal S8x256 .f32) (x3 x4 : FVec Ideal S256x1 .f32)
    (h6 : ∀ (o : Fin 256) (g : Fin 8), x6 (ix2 o g) = mark o g) (h7 : ∀ (g : Fin 8) (o : Fin 256), x7 (ix2 g o) = mark o g)
    (h : FVec Ideal S256x2048 .f32) (o : Fin 256) (b : Fin 2048) :
    normBlock x6 x7 x3 x4 h (ix2 o b)
      = gn (fun o' => h (ix2 o' b)) (fun o' => x3 (ix2 o' (0 : Fin 1))) (fun o' => x4 (ix2 o' (0 : Fin 1))) o := by
  unfold normBlock gn
  rw [addf_apply, mulf_apply, mulf_apply, rsqrt_apply, addf_apply, broadcast_apply, scalar_ofBits, shapeCast_self, shapeCast_self,
    broadcastTo_a1_ab_apply, broadcastTo_a1_ab_apply, spreadBlock_apply x6 h6, varBlock_apply x6 x7 h6 h7,
    cenBlock_apply x6 x7 h6 h7]

/-! ## The stored block -/

/-- What is stored adds the bias column to the row of minima, each broadcast to the block's shape. -/
theorem pay1_eq (v34 : FVec Ideal S1x2048 .f32) (x5 : Vec Ideal S256x1 .f32) :
    k0_pay1 (F := Ideal) v34 x5
      = addf (broadcastTo S256x2048 v34 broadcasts_S1x2048_S256x2048)
          (broadcastTo S256x2048 (shapeCast S256x1 x5 shapeCasts_S256x1_S256x1) broadcasts_S256x1_S256x2048) := rfl

/-- Entry (o, b) of the stored block is the specified result at channel o for row b of the block. -/
theorem pay_apply (x0 : Vec Ideal S2048x512 .f32) (x1 : Vec Ideal S256x512 .f32) (x2 x3 x4 x5 : Vec Ideal S256x1 .f32)
    (x6 : Vec Ideal S256x8 .f32) (x7 : Vec Ideal S8x256 .f32)
    (h6 : ∀ (o : Fin 256) (g : Fin 8), x6 (ix2 o g) = mark o g)
    (h7 : ∀ (g : Fin 8) (o : Fin 256), x7 (ix2 g o) = mark o g)
    (o : Fin 256) (b : Fin 2048) :
    k0_pay1 (F := Ideal) (k0_pay2 (F := Ideal) x0 x1 x2 x6 x7 x3 x4) x5 (ix2 o b)
      = out (fun k => x0 (ix2 b k)) (fun o' k => x1 (ix2 o' k)) (fun o' => x2 (ix2 o' (0 : Fin 1)))
          (fun o' => x3 (ix2 o' (0 : Fin 1))) (fun o' => x4 (ix2 o' (0 : Fin 1))) (fun o' => x5 (ix2 o' (0 : Fin 1))) o := by
  rw [pay1_eq, pay2_eq, addf_apply, broadcastTo_1b_ab_apply, shapeCast_a_1a_apply, min_channels_apply, shapeCast_self,
    broadcastTo_a1_ab_apply]
  unfold out rowMin
  refine congrArg (· + x5 (ix2 o (0 : Fin 1))) ?_
  refine congrArg (Finset.fold min (Ideal.ofBits .f32 0x7F800000#32) · Finset.univ) (funext fun o' => ?_)
  rw [normBlock_apply x6 x7 x3 x4 h6 h7]
  exact congrArg (fun H => gn H (fun o' => x3 (ix2 o' (0 : Fin 1))) (fun o' => x4 (ix2 o' (0 : Fin 1))) o')
    (funext fun o'' => linBlock_apply x0 x1 x2 o'' b)

end Cert.GroupNormMin.Payload

end
-- ==== Proof.Tables.lean ====
/-
  The two literal 0/1 matrices read at an index.

  The first is a 256 x 8 array whose entry (o, g) is one when channel o lies in group g, that is when o / 32 = g, and
  zero otherwise. The second is its transpose, an 8 x 256 array. Both are given as tables of 2048 words; each word is
  either the word of 1.0 or the zero word, and which one is decided word by word.
-/
import proofs.«118542_j66924180406504_1_alg».proof.KernelIdeal
import proofs.«118542_j66924180406504_1_alg».proof.Proof.Spec
import Idealize.ShloMosaic.Lib.ValueIdx

noncomputable section

namespace Cert.GroupNormMin.Tables

open Idealize.ShloMosaic Idealize.ShloMosaic.ValueIdx Cert.KernelIdeal Cert.GroupNormMin

/-! ## The tables, word by word

Position n of the row-major 256 x 8 table is row n / 8 and column n % 8; position n of the row-major 8 x 256 table is
row n / 256 and column n % 256. Each of the 2048 words of each table is compared with the word the test selects. -/

set_option maxRecDepth 100000 in
/-- The 256 x 8 table holds the word of 1.0 exactly where the row's group, (n / 8) / 32, is the column n % 8. -/
theorem lit0_eq : ∀ n : Fin 2048,
    lit0 n = if n.val / 8 / 32 = n.val % 8 then 0x3F800000#32 else 0x00000000#32 := by
  decide +kernel

set_option maxRecDepth 100000 in
/-- The 8 x 256 table holds the word of 1.0 exactly where the column's group, (n % 256) / 32, is the row n / 256. -/
theorem lit1_eq : ∀ n : Fin 2048,
    lit1 n = if n.val % 256 / 32 = n.val / 256 then 0x3F800000#32 else 0x00000000#32 := by
  decide +kernel

/-! ## The two words as extended reals -/

/-- The selected word read as a float: one when the test holds, zero otherwise. -/
theorem ofBits_ite (p : Prop) [Decidable p] :
    FloatOps.ofBits (F := Ideal) .f32 (if p then 0x3F800000#32 else 0x00000000#32) = if p then (1 : EReal) else 0 := by
  rw [Ideal.ofBits_def]
  split_ifs
  · exact Cert.GroupNormMin.ofBits_one
  · exact Ideal.ofBits_zero_f32

/-! ## The tables at a matrix index -/

/-- The word at position o * 8 + g of the 256 x 8 table, read as a float, marks that channel o lies in group g. -/
theorem lit0_word (n : Fin 2048) (o : Fin 256) (g : Fin 8) (h : n.val = o.val * 8 + g.val) :
    FloatOps.ofBits (F := Ideal) .f32 (lit0 n) = mark o g := by
  have ho := o.isLt
  have hg := g.isLt
  have h1 : n.val / 8 = o.val := by omega
  have h2 : n.val % 8 = g.val := by omega
  rw [lit0_eq, ofBits_ite, h1, h2]
  unfold mark
  exact if_congr (Fin.ext_iff (a := grp o) (b := g)).symm rfl rfl

/-- The word at position g * 256 + o of the 8 x 256 table, read as a float, marks the same. -/
theorem lit1_word (n : Fin 2048) (g : Fin 8) (o : Fin 256) (h : n.val = g.val * 256 + o.val) :
    FloatOps.ofBits (F := Ideal) .f32 (lit1 n) = mark o g := by
  have ho := o.isLt
  have hg := g.isLt
  have h1 : n.val % 256 = o.val := by omega
  have h2 : n.val / 256 = g.val := by omega
  rw [lit1_eq, ofBits_ite, h1, h2]
  unfold mark
  exact if_congr (Fin.ext_iff (a := grp o) (b := g)).symm rfl rfl

/-- Entry (o, g) of the 256 x 8 table marks that channel o lies in group g. -/
theorem table_apply (o : Fin 256) (g : Fin 8) :
    FloatOps.ofBits (F := Ideal) .f32 (lit0 (S256x8.rowMajor (ix2 o g))) = mark o g := by
  have hv : (S256x8.rowMajor (ix2 o g)).val = o.val * 8 + g.val := by
    rw [Shape.rowMajor_val_two]; rfl
  exact lit0_word (S256x8.rowMajor (ix2 o g)) o g hv

/-- Entry (g, o) of the 8 x 256 table marks the same. -/
theorem tableT_apply (g : Fin 8) (o : Fin 256) :
    FloatOps.ofBits (F := Ideal) .f32 (lit1 (S8x256.rowMajor (ix2 g o))) = mark o g := by
  have hv : (S8x256.rowMajor (ix2 g o)).val = g.val * 256 + o.val := by
    rw [Shape.rowMajor_val_two]; rfl
  exact lit1_word (S8x256.rowMajor (ix2 g o)) g o hv

end Cert.GroupNormMin.Tables

end
-- ==== Proof.Blocks.lean ====
/-
  From what one grid point stores to the whole result.

  The program first writes the two 0/1 matrices and reshapes the four per-channel vectors to columns; then its one
  region runs over 32 grid points, point t reading rows 2048 t .. 2048 t + 2047 of the input and writing columns
  2048 t .. 2048 t + 2047 of a 256 x 65536 array; then it reshapes that array to 1 x 256 x 65536 x 1. This file
  reads the columns and matrices the region finds, shows that what point t writes back is block t of ONE function of
  the argument arrays (entry (o, b) the specified result at channel o for batch row b), that the 32 blocks cover the
  array, and that the program's run ends with the reshaped array at that function, the arguments unchanged.
-/
import proofs.«118542_j66924180406504_1_alg».proof.Proof.Gen.KernelIdeal.Frame
import proofs.«118542_j66924180406504_1_alg».proof.Proof.Payload
import proofs.«118542_j66924180406504_1_alg».proof.Proof.Tables
import proofs.«118542_j66924180406504_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.GroupNormMin.Blocks

open Cert.KernelIdeal Cert.KernelIdeal.Gen Idealize.ShloMosaic Idealize.ShloMosaic.TcCoe Idealize.SL.Sem
open Idealize.ShloMosaic.ValueIdx Cert.GroupNormMin
open Idealize.ShloMosaic.Pipeline (Dat)

variable (m : (ℓ : Loc nD τ sig) → Buf (Elt Ideal) ℓ) (ρ : Dev nD → PrngReg)

/-! ## What the region finds: the columns and the two 0/1 matrices -/

/-- The linear bias as the region finds it: the argument vector reshaped to a column. -/
theorem V_v0 (c : Dev nD) : (V m c main_v0 : S256x1.Idx → Elt Ideal .f32)
    = shapeCast S256x1 (m ((c : Thread nD τ).loc main_arg2)) shapeCasts_S256_S256x1 := by
  show StableHlo.after hostOps0 (fun b => m (c, b)) (Proc.devRef .tc main_v0) = _
  after_results; rfl

/-- The scale likewise. -/
theorem V_v1 (c : Dev nD) : (V m c main_v1 : S256x1.Idx → Elt Ideal .f32)
    = shapeCast S256x1 (m ((c : Thread nD τ).loc main_arg3)) shapeCasts_S256_S256x1 := by
  show StableHlo.after hostOps0 (fun b => m (c, b)) (Proc.devRef .tc main_v1) = _
  after_results; rfl

/-- The offset likewise. -/
theorem V_v2 (c : Dev nD) : (V m c main_v2 : S256x1.Idx → Elt Ideal .f32)
    = shapeCast S256x1 (m ((c : Thread nD τ).loc main_arg4)) shapeCasts_S256_S256x1 := by
  show StableHlo.after hostOps0 (fun b => m (c, b)) (Proc.devRef .tc main_v2) = _
  after_results; rfl

/-- The output bias, given as 1 x 256 x 1 x 1, reshaped to a column. -/
theorem V_v3 (c : Dev nD) : (V m c main_v3 : S256x1.Idx → Elt Ideal .f32)
    = shapeCast S256x1 (m ((c : Thread nD τ).loc main_arg5)) shapeCasts_S1x256x1x1_S256x1 := by
  show StableHlo.after hostOps0 (fun b => m (c, b)) (Proc.devRef .tc main_v3) = _
  after_results; rfl

/-- The 256 x 8 matrix is the first table. -/
theorem V_cst (c : Dev nD) : (V m c main_cst : S256x8.Idx → Elt Ideal .f32)
    = fun i => FloatOps.ofBits (F := Ideal) .f32 (lit0 (S256x8.rowMajor i)) := by
  show StableHlo.after hostOps0 (fun b => m (c, b)) (Proc.devRef .tc main_cst) = _
  after_results; rfl

/-- The 8 x 256 matrix is the second table. -/
theorem V_cst_0 (c : Dev nD) : (V m c main_cst_0 : S8x256.Idx → Elt Ideal .f32)
    = fun i => FloatOps.ofBits (F := Ideal) .f32 (lit1 (S8x256.rowMajor i)) := by
  show StableHlo.after hostOps0 (fun b => m (c, b)) (Proc.devRef .tc main_cst_0) = _
  after_results; rfl

/-- A vector reshaped to a column keeps its entries. -/
theorem col_apply (x : S256.Idx → Elt Ideal .f32) (o : Fin 256) :
    shapeCast S256x1 x shapeCasts_S256_S256x1 (ix2 o (0 : Fin 1)) = x (ix1 o) :=
  shapeCast_apply x shapeCasts_S256_S256x1 _ _ (by
    rw [Shape.rowMajor_val_one, Shape.rowMajor_val_two]
    show o.val = o.val * 1 + 0
    omega)

/-- The 1 x 256 x 1 x 1 array reshaped to a column keeps its entries. -/
theorem col4_apply (x : S1x256x1x1.Idx → Elt Ideal .f32) (o : Fin 256) :
    shapeCast S256x1 x shapeCasts_S1x256x1x1_S256x1 (ix2 o (0 : Fin 1)) = x (ix4 (0 : Fin 1) o (0 : Fin 1) (0 : Fin 1)) :=
  shapeCast_apply x shapeCasts_S1x256x1x1_S256x1 _ _ (by
    rw [Shape.rowMajor_val_four, Shape.rowMajor_val_two]
    show ((0 * 256 + o.val) * 1 + 0) * 1 + 0 = o.val * 1 + 0
    omega)

/-! ## The index maps over the grid -/

/-- Point t reads block (t, 0) of the input, writes block (0, t) of the result, and every other window stays at its
    one block. Decided over the 32 points. -/
theorem idx_facts : ∀ t : Fin cfg0.N,
    win0_0.index t (0 : Fin 2) = t.val ∧ win0_0.index t (1 : Fin 2) = 0
    ∧ win0_8.index t (0 : Fin 2) = 0 ∧ win0_8.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The whole result as one function of the arguments -/

/-- Entry (o, b) of the 256 x 65536 array: the specified result at channel o for batch row b. -/
def Garr (c : Dev nD) : S256x65536.Idx → Elt Ideal .f32 := fun i =>
  out (fun k => (m ((c : Thread nD τ).loc main_arg0) : S65536x512.Idx → Elt Ideal .f32) (ix2 (i 1) k))
    (fun o' k => (m ((c : Thread nD τ).loc main_arg1) : S256x512.Idx → Elt Ideal .f32) (ix2 o' k))
    (fun o' => (m ((c : Thread nD τ).loc main_arg2) : S256.Idx → Elt Ideal .f32) (ix1 o'))
    (fun o' => (m ((c : Thread nD τ).loc main_arg3) : S256.Idx → Elt Ideal .f32) (ix1 o'))
    (fun o' => (m ((c : Thread nD τ).loc main_arg4) : S256.Idx → Elt Ideal .f32) (ix1 o'))
    (fun o' => (m ((c : Thread nD τ).loc main_arg5) : S1x256x1x1.Idx → Elt Ideal .f32) (ix4 (0 : Fin 1) o' (0 : Fin 1) (0 : Fin 1)))
    (i 0)

theorem lt32 (t : Fin cfg0.N) : t.val < 32 := lt_of_lt_of_eq t.isLt N_0

/-- Batch row b of point t's block is row 2048 t + b of the input. -/
def rowAt (t : Fin cfg0.N) (b : Fin 2048) : Fin 65536 :=
  ⟨t.val * 2048 + b.val, by have := lt32 t; have := b.isLt; omega⟩

/-! ## The blocks a point reads -/

theorem blk0_apply (c : Dev nD) (t : Fin cfg0.N) (b : Fin 2048) (k : Fin 512) :
    iblk m c 0 t (ix2 b k) = (m ((c : Thread nD τ).loc main_arg0) : S65536x512.Idx → Elt Ideal .f32) (ix2 (rowAt t b) k) := by
  obtain ⟨e00, e01, -⟩ := idx_facts t
  show V m c main_arg0 (((cfg0.win 0).blk t).view.emb (ix2 b k)) = _
  rw [V_main_arg0]
  refine congrArg _ (funext fun a => Fin.ext ?_)
  match a with
  | ⟨0, _⟩ => show win0_0.index t (0 : Fin 2) * 2048 + 1 * b.val = t.val * 2048 + b.val; rw [e00]; omega
  | ⟨1, _⟩ => show win0_0.index t (1 : Fin 2) * 512 + 1 * k.val = k.val; rw [e01]; omega

theorem blk1_apply (c : Dev nD) (t : Fin cfg0.N) (o : Fin 256) (k : Fin 512) :
    iblk m c 1 t (ix2 o k) = (m ((c : Thread nD τ).loc main_arg1) : S256x512.Idx → Elt Ideal .f32) (ix2 o k) := by
  obtain ⟨-, -, -, -, e10, e11, -⟩ := idx_facts t
  show V m c main_arg1 (((cfg0.win 1).blk t).view.emb (ix2 o k)) = _
  rw [V_main_arg1]
  refine congrArg _ (funext fun a => Fin.ext ?_)
  match a with
  | ⟨0, _⟩ => show win0_1.index t (0 : Fin 2) * 256 + 1 * o.val = o.val; rw [e10]; omega
  | ⟨1, _⟩ => show win0_1.index t (1 : Fin 2) * 512 + 1 * k.val = k.val; rw [e11]; omega

theorem blk2_apply (c : Dev nD) (t : Fin cfg0.N) (o : Fin 256) :
    iblk m c 2 t (ix2 o (0 : Fin 1)) = (m ((c : Thread nD τ).loc main_arg2) : S256.Idx → Elt Ideal .f32) (ix1 o) := by
  obtain ⟨-, -, -, -, -, -, e0, e1, -⟩ := idx_facts t
  show (V m c main_v0 : S256x1.Idx → Elt Ideal .f32) (((cfg0.win 2).blk t).view.emb (ix2 o (0 : Fin 1))) = _
  have he : ((cfg0.win 2).blk t).view.emb (ix2 o (0 : Fin 1)) = ix2 o (0 : Fin 1) := funext fun a => Fin.ext (by
    match a with
    | ⟨0, _⟩ => show win0_2.index t (0 : Fin 2) * 256 + 1 * o.val = o.val; rw [e0]; omega
    | ⟨1, _⟩ => show win0_2.index t (1 : Fin 2) * 1 + 1 * 0 = 0; rw [e1])
  rw [he, V_v0, col_apply]

theorem blk3_apply (c : Dev nD) (t : Fin cfg0.N) (o : Fin 256) :
    iblk m c 3 t (ix2 o (0 : Fin 1)) = (m ((c : Thread nD τ).loc main_arg3) : S256.Idx → Elt Ideal .f32) (ix1 o) := by
  obtain ⟨-, -, -, -, -, -, -, -, e0, e1, -⟩ := idx_facts t
  show (V m c main_v1 : S256x1.Idx → Elt Ideal .f32) (((cfg0.win 3).blk t).view.emb (ix2 o (0 : Fin 1))) = _
  have he : ((cfg0.win 3).blk t).view.emb (ix2 o (0 : Fin 1)) = ix2 o (0 : Fin 1) := funext fun a => Fin.ext (by
    match a with
    | ⟨0, _⟩ => show win0_3.index t (0 : Fin 2) * 256 + 1 * o.val = o.val; rw [e0]; omega
    | ⟨1, _⟩ => show win0_3.index t (1 : Fin 2) * 1 + 1 * 0 = 0; rw [e1])
  rw [he, V_v1, col_apply]

theorem blk4_apply (c : Dev nD) (t : Fin cfg0.N) (o : Fin 256) :
    iblk m c 4 t (ix2 o (0 : Fin 1)) = (m ((c : Thread nD τ).loc main_arg4) : S256.Idx → Elt Ideal .f32) (ix1 o) := by
  obtain ⟨-, -, -, -, -, -, -, -, -, -, e0, e1, -⟩ := idx_facts t
  show (V m c main_v2 : S256x1.Idx → Elt Ideal .f32) (((cfg0.win 4).blk t).view.emb (ix2 o (0 : Fin 1))) = _
  have he : ((cfg0.win 4).blk t).view.emb (ix2 o (0 : Fin 1)) = ix2 o (0 : Fin 1) := funext fun a => Fin.ext (by
    match a with
    | ⟨0, _⟩ => show win0_4.index t (0 : Fin 2) * 256 + 1 * o.val = o.val; rw [e0]; omega
    | ⟨1, _⟩ => show win0_4.index t (1 : Fin 2) * 1 + 1 * 0 = 0; rw [e1])
  rw [he, V_v2, col_apply]

theorem blk5_apply (c : Dev nD) (t : Fin cfg0.N) (o : Fin 256) :
    iblk m c 5 t (ix2 o (0 : Fin 1))
      = (m ((c : Thread nD τ).loc main_arg5) : S1x256x1x1.Idx → Elt Ideal .f32) (ix4 (0 : Fin 1) o (0 : Fin 1) (0 : Fin 1)) := by
  obtain ⟨-, -, -, -, -, -, -, -, -, -, -, -, e0, e1, -⟩ := idx_facts t
  show (V m c main_v3 : S256x1.Idx → Elt Ideal .f32) (((cfg0.win 5).blk t).view.emb (ix2 o (0 : Fin 1))) = _
  have he : ((cfg0.win 5).blk t).view.emb (ix2 o (0 : Fin 1)) = ix2 o (0 : Fin 1) := funext fun a => Fin.ext (by
    match a with
    | ⟨0, _⟩ => show win0_5.index t (0 : Fin 2) * 256 + 1 * o.val = o.val; rw [e0]; omega
    | ⟨1, _⟩ => show win0_5.index t (1 : Fin 2) * 1 + 1 * 0 = 0; rw [e1])
  rw [he, V_v3, col4_apply]

theorem blk6_apply (c : Dev nD) (t : Fin cfg0.N) (o : Fin 256) (g : Fin 8) :
    iblk m c 6 t (ix2 o g) = mark o g := by
  obtain ⟨-, -, -, -, -, -, -, -, -, -, -, -, -, -, e0, e1, -⟩ := idx_facts t
  show (V m c main_cst : S256x8.Idx → Elt Ideal .f32) (((cfg0.win 6).blk t).view.emb (ix2 o g)) = _
  have he : ((cfg0.win 6).blk t).view.emb (ix2 o g) = ix2 o g := funext fun a => Fin.ext (by
    match a with
    | ⟨0, _⟩ => show win0_6.index t (0 : Fin 2) * 256 + 1 * o.val = o.val; rw [e0]; omega
    | ⟨1, _⟩ => show win0_6.index t (1 : Fin 2) * 8 + 1 * g.val = g.val; rw [e1]; omega)
  rw [he, V_cst]
  exact Tables.table_apply o g

theorem blk7_apply (c : Dev nD) (t : Fin cfg0.N) (g : Fin 8) (o : Fin 256) :
    iblk m c 7 t (ix2 g o) = mark o g := by
  obtain ⟨-, -, -, -, -, -, -, -, -, -, -, -, -, -, -, -, e0, e1⟩ := idx_facts t
  show (V m c main_cst_0 : S8x256.Idx → Elt Ideal .f32) (((cfg0.win 7).blk t).view.emb (ix2 g o)) = _
  have he : ((cfg0.win 7).blk t).view.emb (ix2 g o) = ix2 g o := funext fun a => Fin.ext (by
    match a with
    | ⟨0, _⟩ => show win0_7.index t (0 : Fin 2) * 8 + 1 * g.val = g.val; rw [e0]; omega
    | ⟨1, _⟩ => show win0_7.index t (1 : Fin 2) * 256 + 1 * o.val = o.val; rw [e1]; omega)
  rw [he, V_cst_0]
  exact Tables.tableT_apply g o

/-! ## What a point writes back -/

theorem hz : (![0, 0] : Fin 2 → Nat) = fun _ => 0 := funext fun a => by fin_cases a <;> rfl

/-- What point t writes back is block t of the one function. -/
theorem flushed_eq (c : Dev nD) (t : Fin cfg0.N) :
    (dats m 0 c).flushed 8 t = ((cfg0.win 8).blk t).view.read (Elt Ideal) (Garr m c) := by
  show (cfg0.win 8).cut (grid0.coords t) ((dats m 0 c).after 8 t) = _
  rw [after0_8]
  unfold out0_8
  rw [View.canon_unit_zero hz]
  simp only [View.ld_unit_zero (S := S2048x512) hz, View.ld_unit_zero (S := S256x512) hz, View.ld_unit_zero (S := S256x1) hz,
    View.ld_unit_zero (S := S256x8) hz, View.ld_unit_zero (S := S8x256) hz]
  obtain ⟨-, -, e80, e81, -⟩ := idx_facts t
  funext j
  obtain ⟨o, b, rfl⟩ : ∃ (o : Fin 256) (b : Fin 2048), j = ix2 o b := ⟨j 0, j 1, eq_ix2 j⟩
  show k0_pay1 (F := Ideal) (k0_pay2 (F := Ideal) (iblk m c 0 t) (iblk m c 1 t) (iblk m c 2 t) (iblk m c 6 t) (iblk m c 7 t) (iblk m c 3 t) (iblk m c 4 t)) (iblk m c 5 t) (ix2 o b)
    = Garr m c (((cfg0.win 8).blk t).view.emb (ix2 o b))
  refine (Payload.pay_apply (iblk m c 0 t) (iblk m c 1 t) (iblk m c 2 t) (iblk m c 3 t) (iblk m c 4 t) (iblk m c 5 t) (iblk m c 6 t) (iblk m c 7 t)
    (fun o' g => blk6_apply m c t o' g) (fun g o' => blk7_apply m c t g o') o b).trans ?_
  have he : ((cfg0.win 8).blk t).view.emb (ix2 o b) = ix2 o (rowAt t b) := funext fun a => Fin.ext (by
    match a with
    | ⟨0, _⟩ => show win0_8.index t (0 : Fin 2) * 256 + 1 * o.val = o.val; rw [e80]; omega
    | ⟨1, _⟩ => show win0_8.index t (1 : Fin 2) * 2048 + 1 * b.val = t.val * 2048 + b.val; rw [e81]; omega)
  rw [he]
  simp only [blk0_apply, blk1_apply, blk2_apply, blk3_apply, blk4_apply, blk5_apply]
  rfl

/-! ## The blocks cover the array -/

/-- An index lies in point t's output block iff each coordinate lies in the block's range on its axis. -/
theorem mem_blk (t : Fin cfg0.N) (i : S256x65536.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v4).slice (win0_8.rect t)).set ↔ _
  rw [View.set_slice_whole, Rect.mem_set_unit]
  exact Iff.rfl

/-- Column b lies in the block of point b / 2048, which writes back. -/
theorem cover (i : S256x65536.Idx) :
    ∃ t : Fin cfg0.N, (cfg0.win 8).flush t = true ∧ i ∈ ((cfg0.win 8).blk t).view.set := by
  have hi0 : (i 0).val < 256 := (i 0).isLt
  have hi1 : (i 1).val < 65536 := (i 1).isLt
  have hN : cfg0.N = 32 := N_0
  refine ⟨⟨(i 1).val / 2048, by rw [hN]; omega⟩, flush0_8 _, ?_⟩
  obtain ⟨-, -, e80, e81, -⟩ := idx_facts ⟨(i 1).val / 2048, by rw [hN]; omega⟩
  rw [mem_blk]
  intro a
  match a with
  | ⟨0, _⟩ =>
    show win0_8.index _ (0 : Fin 2) * 256 ≤ (i 0).val ∧ (i 0).val < win0_8.index _ (0 : Fin 2) * 256 + 256
    rw [e80]; omega
  | ⟨1, _⟩ =>
    show win0_8.index _ (1 : Fin 2) * 2048 ≤ (i 1).val ∧ (i 1).val < win0_8.index _ (1 : Fin 2) * 2048 + 2048
    rw [e81]
    show (i 1).val / 2048 * 2048 ≤ (i 1).val ∧ (i 1).val < (i 1).val / 2048 * 2048 + 2048
    omega

/-- After the region the 256 x 65536 array is the one function. -/
theorem final (c : Dev nD) : (dats m 0 c).arrAt 8 cfg0.N = Garr m c :=
  (dats m 0 c).arrAt_eq_of_cover 8 (Garr m c) (fun t _ => flushed_eq m c t) cover

/-! ## The reshape after the region, and the run -/

/-- The program's result as one function of the arguments: entry (0, o, b, 0) is the specified result at channel o for
    batch row b. -/
def Gres (c : Dev nD) : S1x256x65536x1.Idx → Elt Ideal .f32 := fun i =>
  out (fun k => (m ((c : Thread nD τ).loc main_arg0) : S65536x512.Idx → Elt Ideal .f32) (ix2 (i 2) k))
    (fun o' k => (m ((c : Thread nD τ).loc main_arg1) : S256x512.Idx → Elt Ideal .f32) (ix2 o' k))
    (fun o' => (m ((c : Thread nD τ).loc main_arg2) : S256.Idx → Elt Ideal .f32) (ix1 o'))
    (fun o' => (m ((c : Thread nD τ).loc main_arg3) : S256.Idx → Elt Ideal .f32) (ix1 o'))
    (fun o' => (m ((c : Thread nD τ).loc main_arg4) : S256.Idx → Elt Ideal .f32) (ix1 o'))
    (fun o' => (m ((c : Thread nD τ).loc main_arg5) : S1x256x1x1.Idx → Elt Ideal .f32) (ix4 (0 : Fin 1) o' (0 : Fin 1) (0 : Fin 1)))
    (i 1)

/-- The 256 x 65536 array reshaped to 1 x 256 x 65536 x 1 keeps its entries: (0, o, b, 0) reads (o, b). -/
theorem reshape_Garr (c : Dev nD) :
    shapeCast S1x256x65536x1 (Garr m c) shapeCasts_S256x65536_S1x256x65536x1 = Gres m c := by
  funext i
  have h0 : (i 0).val < 1 := (i 0).isLt
  have h1 : (i 1).val < 256 := (i 1).isLt
  have h2 : (i 2).val < 65536 := (i 2).isLt
  have h3 : (i 3).val < 1 := (i 3).isLt
  refine (shapeCast_apply (Garr m c) shapeCasts_S256x65536_S1x256x65536x1 i (ix2 (i 1) (i 2)) (by
    rw [Shape.rowMajor_val_two, Shape.rowMajor_val_four]
    show (i 1).val * 65536 + (i 2).val = (((i 0).val * 256 + (i 1).val) * 65536 + (i 2).val) * 1 + (i 3).val
    omega)).trans ?_
  rfl

/-- The result buffer after the reshape that follows the region. -/
theorem tail_eq (c : Dev nD) :
    Pipeline.afterTail₀ cfgs (dats m) 0 (V0 m) [hostOps1] c main_v5 = Gres m c := by
  unfold Pipeline.afterTail₀
  show StableHlo.after hostOps1 _ (Proc.devRef .tc main_v5) = _
  after_results
  funext i
  show shapeCast S1x256x65536x1 (Pipeline.withArrays (cfgs 0).spec c (V0 m c) (fun w => (dats m 0 c).arrAt w (cfgs 0).N)
    (Proc.devRef .tc main_v4)) shapeCasts_S256x65536_S1x256x65536x1 i = _
  rw [show Pipeline.withArrays (cfgs 0).spec c (V0 m c) (fun w => (dats m 0 c).arrAt w (cfgs 0).N) (Proc.devRef .tc main_v4)
      = Garr m c from (Pipeline.withArrays_arr spec0 launch0.win.arr_inj c _ _ 8).trans (final m c), reshape_Garr]

/-- The idealized kernel program's run: every weakly fair execution terminates with the result at the one function of
    the arguments and the arguments unchanged. -/
theorem run : θ_run defs (onTc (τ := τ) (main (F := Ideal))) ⟨m, fun _ => 0, ρ⟩ fun r => ∀ c : Dev nD,
      r.2.mem ((c.tc : Thread nD τ).loc main_v5) = Gres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.GroupNormMin.Blocks

end
-- ==== Proof.RefIsSpec.lean ====
/-
  The reference computes the specified function.

  Its result at (0, o, b, 0) is the specified result at output channel o for batch row b: the matrix product with the
  bias, the reshape of the 256 channels to 8 groups of 32, the two sums over the short axis divided by 32, the
  normalization, the reshape back, the scale and offset, the least value over the channels, and the bias of channel o
  broadcast over the rows.
-/
import proofs.«118542_j66924180406504_1_alg».proof.Proof.Gen.ReferenceIdeal.Read
import proofs.«118542_j66924180406504_1_alg».proof.Proof.Spec
import Idealize.ShloMosaic.Lib.ValueIdx
import Idealize.ShloMosaic.Lib.Pipeline.Value
import Idealize.ShloMosaic.PureOps.Ideal.Laws

noncomputable section

open scoped BigOperators

namespace Cert.GroupNormMin.Ref

open Idealize.ShloMosaic Idealize.ShloMosaic.ValueIdx Cert.ReferenceIdeal Cert.ReferenceIdeal.Read Cert.GroupNormMin

variable [Cert.ReferenceIdeal.Facts]

section Stages

variable (x0 : (⟨S65536x512, .f32⟩ : BufTy).Contents (Elt Ideal)) (x1 : (⟨S256x512, .f32⟩ : BufTy).Contents (Elt Ideal))
  (x2 x3 x4 : (⟨S256, .f32⟩ : BufTy).Contents (Elt Ideal))

/-- Row b's 256 linear-layer channels. -/
abbrev hrow (b : Fin 65536) : Fin 256 → EReal :=
  lin (fun k => x0 (ix2 b k)) (fun o'' k => x1 (ix2 o'' k)) (fun o'' => x2 (ix1 o''))

/-- The linear layer's stage at (b, o') is the specified linear layer at channel o'. -/
theorem v3_at (b : Fin 65536) (o' : Fin 256) :
    val_main_v3 (F := Ideal) x0 x1 x2 (ix2 b o') = hrow x0 x1 x2 b o' := by
  rw [val_main_v3_apply, val_main_v0_apply, val_main_v2_apply, val_main_v1_apply, Ideal.addf_def]
  unfold hrow lin
  have e1 : ∀ k : Fin 512, lidx_main_v0 (ix2 b o') k = ix2 b k := fun k => funext fun a => Fin.ext (by
    match a with | ⟨0, _⟩ => rfl | ⟨1, _⟩ => rfl)
  have e2 : ∀ k : Fin 512, ridx_main_v0 (ix2 b o') k = ix2 o' k := fun k => funext fun a => Fin.ext (by
    match a with | ⟨0, _⟩ => rfl | ⟨1, _⟩ => rfl)
  have e3 : idx_main_v1 (idx_main_v2 (ix2 b o')) = ix1 o' := funext fun a => Fin.ext (by
    match a with | ⟨0, _⟩ => rfl)
  simp only [e1, e2, e3]

/-- The reshape to 8 groups of 32: entry (b, g, j) is channel g * 32 + j of row b. -/
theorem v4_at (b : Fin 65536) (g : Fin 8) (j : Fin 32) :
    val_main_v4 (F := Ideal) x0 x1 x2 (ix3 b g j) = hrow x0 x1 x2 b (chan g j) := by
  rw [val_main_v4_apply]
  have e : idx_main_v4 (ix3 b g j) = ix2 b (chan g j) := funext fun a => Fin.ext (by
    have hb := b.isLt; have hg := g.isLt; have hj := j.isLt
    match a with
    | ⟨0, _⟩ => show ((b.val * 8 + g.val) * 32 + j.val) / 256 = b.val; omega
    | ⟨1, _⟩ => show ((b.val * 8 + g.val) * 32 + j.val) % 256 = g.val * 32 + j.val; omega)
  rw [e, v3_at]

/-- The sum over a group's 32 channels, started from the zero word. -/
theorem v5_at (b : Fin 65536) (g : Fin 8) :
    val_main_v5 (F := Ideal) x0 x1 x2 (ix2 b g)
      = Ideal.ofBits .f32 0x00000000#32 + ∑ j : Fin 32, hrow x0 x1 x2 b (chan g j) := by
  rw [val_main_v5_apply]
  have e : ∀ k : Fin 32, idx_main_v5 (ix2 b g) k = ix3 b g k := fun k => funext fun a => Fin.ext (by
    match a with | ⟨0, _⟩ => rfl | ⟨1, _⟩ => rfl | ⟨2, _⟩ => rfl)
  simp only [e, v4_at]
  rfl

/-- The group's mean. -/
theorem v8_at (b : Fin 65536) (g : Fin 8) (u : Fin 1) :
    val_main_v8 (F := Ideal) x0 x1 x2 (ix3 b g u) = gmean (hrow x0 x1 x2 b) g := by
  rw [val_main_v8_apply, val_main_v6_apply, val_main_v7_apply, Ideal.hostDivf_def]
  have e : idx_main_v6 (ix3 b g u) = ix2 b g := funext fun a => Fin.ext (by
    match a with | ⟨0, _⟩ => rfl | ⟨1, _⟩ => rfl)
  rw [e, v5_at]
  rfl

/-- The centred channel (first copy). -/
theorem v10_at (b : Fin 65536) (g : Fin 8) (j : Fin 32) :
    val_main_v10 (F := Ideal) x0 x1 x2 (ix3 b g j) = cen (hrow x0 x1 x2 b) (chan g j) := by
  rw [val_main_v10_apply, val_main_v9_apply, Ideal.subf_def, v4_at]
  have e : idx_main_v9 (ix3 b g j) = ix3 b g (0 : Fin 1) := funext fun a => Fin.ext (by
    match a with | ⟨0, _⟩ => rfl | ⟨1, _⟩ => rfl | ⟨2, _⟩ => rfl)
  rw [e, v8_at]
  unfold cen
  rw [grp_chan]

/-- The centred channel (second copy). -/
theorem v17_at (b : Fin 65536) (g : Fin 8) (j : Fin 32) :
    val_main_v17 (F := Ideal) x0 x1 x2 (ix3 b g j) = cen (hrow x0 x1 x2 b) (chan g j) := by
  rw [val_main_v17_apply, val_main_v16_apply, Ideal.subf_def, v4_at]
  have e : idx_main_v16 (ix3 b g j) = ix3 b g (0 : Fin 1) := funext fun a => Fin.ext (by
    match a with | ⟨0, _⟩ => rfl | ⟨1, _⟩ => rfl | ⟨2, _⟩ => rfl)
  rw [e, v8_at]
  unfold cen
  rw [grp_chan]

/-- The sum of the squares of a group's centred channels, started from the zero word. -/
theorem v12_at (b : Fin 65536) (g : Fin 8) :
    val_main_v12 (F := Ideal) x0 x1 x2 (ix2 b g)
      = Ideal.ofBits .f32 0x00000000#32
          + ∑ j : Fin 32, cen (hrow x0 x1 x2 b) (chan g j) * cen (hrow x0 x1 x2 b) (chan g j) := by
  rw [val_main_v12_apply]
  have e : ∀ k : Fin 32, idx_main_v12 (ix2 b g) k = ix3 b g k := fun k => funext fun a => Fin.ext (by
    match a with | ⟨0, _⟩ => rfl | ⟨1, _⟩ => rfl | ⟨2, _⟩ => rfl)
  simp only [e, val_main_v11_apply, v10_at, Ideal.mulf_def]
  rfl

/-- The group's variance. -/
theorem v15_at (b : Fin 65536) (g : Fin 8) (u : Fin 1) :
    val_main_v15 (F := Ideal) x0 x1 x2 (ix3 b g u) = gvar (hrow x0 x1 x2 b) g := by
  rw [val_main_v15_apply, val_main_v13_apply, val_main_v14_apply, Ideal.hostDivf_def]
  have e : idx_main_v13 (ix3 b g u) = ix2 b g := funext fun a => Fin.ext (by
    match a with | ⟨0, _⟩ => rfl | ⟨1, _⟩ => rfl)
  rw [e, v12_at]
  rfl

/-- The normalized channel in the grouped layout. -/
theorem v22_at (b : Fin 65536) (g : Fin 8) (j : Fin 32) :
    val_main_v22 (F := Ideal) x0 x1 x2 (ix3 b g j)
      = cen (hrow x0 x1 x2 b) (chan g j)
          * Ideal.rsqrt (gvar (hrow x0 x1 x2 b) g + Ideal.ofBits .f32 0x3727C5AC#32) := by
  rw [val_main_v22_apply, val_main_v21_apply, val_main_v20_apply, val_main_v19_apply, val_main_v18_apply,
    Ideal.mulf_def, Ideal.hostUnary_rsqrt_def, Ideal.addf_def, v17_at]
  have e : idx_main_v21 (ix3 b g j) = ix3 b g (0 : Fin 1) := funext fun a => Fin.ext (by
    match a with | ⟨0, _⟩ => rfl | ⟨1, _⟩ => rfl | ⟨2, _⟩ => rfl)
  rw [e, v15_at]
  rfl

/-- A channel is channel (o mod 32) of its own group. -/
theorem chan_grp_mod (o' : Fin 256) : chan (grp o') ⟨o'.val % 32, Nat.mod_lt _ (by decide)⟩ = o' :=
  Fin.ext (by show o'.val / 32 * 32 + o'.val % 32 = o'.val; omega)

/-- The normalized channel after the reshape back to 256 channels. -/
theorem v23_at (b : Fin 65536) (o' : Fin 256) :
    val_main_v23 (F := Ideal) x0 x1 x2 (ix2 b o')
      = cen (hrow x0 x1 x2 b) o'
          * Ideal.rsqrt (gvar (hrow x0 x1 x2 b) (grp o') + Ideal.ofBits .f32 0x3727C5AC#32) := by
  rw [val_main_v23_apply]
  have e : idx_main_v23 (ix2 b o') = ix3 b (grp o') (⟨o'.val % 32, Nat.mod_lt _ (by decide)⟩ : Fin 32) :=
    funext fun a => Fin.ext (by
      have hb := b.isLt; have ho := o'.isLt
      match a with
      | ⟨0, _⟩ => show (b.val * 256 + o'.val) / 256 = b.val; omega
      | ⟨1, _⟩ => show (b.val * 256 + o'.val) / 32 % 8 = o'.val / 32; omega
      | ⟨2, _⟩ => show (b.val * 256 + o'.val) % 32 = o'.val % 32; omega)
  rw [e, v22_at, chan_grp_mod]

/-- The scaled and shifted channel. -/
theorem v29_at (b : Fin 65536) (o' : Fin 256) :
    val_main_v29 (F := Ideal) x0 x1 x2 x3 x4 (ix2 b o')
      = gn (hrow x0 x1 x2 b) (fun o'' => x3 (ix1 o'')) (fun o'' => x4 (ix1 o'')) o' := by
  rw [val_main_v29_apply, val_main_v26_apply, val_main_v25_apply, val_main_v24_apply, val_main_v28_apply,
    val_main_v27_apply, Ideal.addf_def, Ideal.mulf_def, v23_at]
  have e3 : idx_main_v24 (idx_main_v25 (ix2 b o')) = ix1 o' := funext fun a => Fin.ext (by
    match a with | ⟨0, _⟩ => rfl)
  have e4 : idx_main_v27 (idx_main_v28 (ix2 b o')) = ix1 o' := funext fun a => Fin.ext (by
    match a with | ⟨0, _⟩ => rfl)
  rw [e3, e4]
  rfl

end Stages

section Min

variable (x0 : (⟨S65536x512, .f32⟩ : BufTy).Contents (Elt Ideal)) (x1 : (⟨S256x512, .f32⟩ : BufTy).Contents (Elt Ideal))
  (x2 x3 x4 : (⟨S256, .f32⟩ : BufTy).Contents (Elt Ideal))

/-- Row b with channel k put back on the dropped axis is (b, k). -/
theorem lift_row (h : S65536x256.Reduces [1] S65536) (b : Fin 65536) (k : Fin (S65536x256.size 1)) :
    h.lift (ix1 b) k = ix2 b (⟨k.val, k.isLt⟩ : Fin 256) := by
  funext c; apply Fin.ext
  match c with
  | ⟨0, _⟩ => rfl
  | ⟨1, _⟩ => rfl

/-- The least value over the 256 channels of row b. -/
theorem v30_at (b : Fin 65536) :
    val_main_v30 (F := Ideal) x0 x1 x2 x3 x4 (ix1 b)
      = rowMin (hrow x0 x1 x2 b) (fun o'' => x3 (ix1 o'')) (fun o'' => x4 (ix1 o'')) := by
  unfold val_main_v30
  have h : S65536x256.Reduces [1] S65536 := by decide
  rw [Host.reduce_eq_fold_single FloatOps.minimumf _ _ Gen.reducesTo_S65536x256_S65536_d1 h Gen.h_S_]
  unfold rowMin
  have hf : (val_main_v29 (F := Ideal) x0 x1 x2 x3 x4 ∘ h.lift (ix1 b))
      = gn (hrow x0 x1 x2 b) (fun o'' => x3 (ix1 o'')) (fun o'' => x4 (ix1 o'')) := funext fun k => by
    show val_main_v29 (F := Ideal) x0 x1 x2 x3 x4 (h.lift (ix1 b) k) = _
    rw [lift_row h b k, v29_at]
    rfl
  rw [hf]
  rfl

end Min

/-- The reference's last stage at (0, o, b, 0) is the specified result at channel o for row b. -/
theorem ref_apply (x0 : (⟨S65536x512, .f32⟩ : BufTy).Contents (Elt Ideal)) (x1 : (⟨S256x512, .f32⟩ : BufTy).Contents (Elt Ideal))
    (x2 x3 x4 : (⟨S256, .f32⟩ : BufTy).Contents (Elt Ideal)) (x5 : (⟨S1x256x1x1, .f32⟩ : BufTy).Contents (Elt Ideal))
    (o : Fin 256) (b : Fin 65536) :
    val_main_v35 (F := Ideal) x0 x1 x2 x3 x4 x5 (ix4 (0 : Fin 1) o b (0 : Fin 1))
      = out (fun k => x0 (ix2 b k)) (fun o' k => x1 (ix2 o' k)) (fun o' => x2 (ix1 o')) (fun o' => x3 (ix1 o'))
          (fun o' => x4 (ix1 o')) (fun o' => x5 (ix4 (0 : Fin 1) o' (0 : Fin 1) (0 : Fin 1))) o := by
  rw [val_main_v35_apply, val_main_v33_apply, val_main_v32_apply, val_main_v31_apply, val_main_v34_apply,
    Ideal.addf_def]
  have e1 : idx_main_v31 (idx_main_v32 (idx_main_v33 (ix4 (0 : Fin 1) o b (0 : Fin 1)))) = ix1 b :=
    funext fun a => Fin.ext (by match a with | ⟨0, _⟩ => rfl)
  have e2 : idx_main_v34 (ix4 (0 : Fin 1) o b (0 : Fin 1)) = ix4 (0 : Fin 1) o (0 : Fin 1) (0 : Fin 1) :=
    funext fun a => Fin.ext (by
      match a with | ⟨0, _⟩ => rfl | ⟨1, _⟩ => rfl | ⟨2, _⟩ => rfl | ⟨3, _⟩ => rfl)
  rw [e1, e2, v30_at]
  rfl

end Cert.GroupNormMin.Ref

end
-- ==== Proof.lean ====
/-
  The kernel and its reference compute one function on the extended reals.

  Both take 65536 rows of 512 inputs through a linear layer to 256 channels, normalize the channels in 8 groups of 32
  consecutive ones (centre by the group's mean, multiply by the reciprocal square root of the group's variance plus a
  small constant, then by the channel's scale, and add the channel's offset), take the least of the 256 normalized
  channels of each row, and add a per-channel bias, giving a 1 x 256 x 65536 x 1 result whose entry (0, o, b, 0) is
  the least value of row b plus the bias of channel o.

  The reference forms a group's statistics by reshaping the channels to 8 x 32, summing the short axis and dividing by
  32. The kernel works on 32 blocks of 2048 rows with channels along the first axis, forms the statistics by products
  with a 0/1 matrix and its transpose and a multiplication by 1/32, and a reshape after its one region brings the
  256 x 65536 array to the result's shape. The specification (Proof/Spec.lean) states the function once, per row; the
  reference's last stage is shown to be it entry by entry (Proof/RefIsSpec.lean), what a grid point stores likewise
  (Proof/Payload.lean over the 0/1 tables of Proof/Tables.lean), and the 32 stored blocks are put together and carried
  through the reshape (Proof/Blocks.lean). No step needs the inputs to be finite: the laws used are that zero times
  anything is zero, that addition and multiplication are commutative and associative, and that multiplying by 1/32 is
  dividing by 32, all of which hold on every extended real.

  The three frame claims are the generated frames of the two kernel programs and the reference's generated run with
  its result dropped; nothing was rewritten when the kernel was idealized, so that claim is trivial.
-/
import proofs.«118542_j66924180406504_1_alg».proof.Defs
import proofs.«118542_j66924180406504_1_alg».proof.Proof.Gen.Kernel
import proofs.«118542_j66924180406504_1_alg».proof.Proof.Gen.Kernel.Skeleton
import proofs.«118542_j66924180406504_1_alg».proof.Proof.Gen.Kernel.Launch
import proofs.«118542_j66924180406504_1_alg».proof.Proof.Gen.Kernel.Points
import proofs.«118542_j66924180406504_1_alg».proof.Proof.Gen.Kernel.Frame
import proofs.«118542_j66924180406504_1_alg».proof.Proof.Gen.KernelIdeal
import proofs.«118542_j66924180406504_1_alg».proof.Proof.Gen.KernelIdeal.Skeleton
import proofs.«118542_j66924180406504_1_alg».proof.Proof.Gen.KernelIdeal.Launch
import proofs.«118542_j66924180406504_1_alg».proof.Proof.Gen.KernelIdeal.Points
import proofs.«118542_j66924180406504_1_alg».proof.Proof.Gen.KernelIdeal.Frame
import proofs.«118542_j66924180406504_1_alg».proof.Proof.Gen.ReferenceIdeal
import proofs.«118542_j66924180406504_1_alg».proof.Proof.Gen.ReferenceIdeal.Run
import proofs.«118542_j66924180406504_1_alg».proof.Proof.Gen.ReferenceIdeal.Read
import proofs.«118542_j66924180406504_1_alg».proof.Proof.Gen.Pre_finite_inputs
import proofs.«118542_j66924180406504_1_alg».proof.Proof.Blocks
import proofs.«118542_j66924180406504_1_alg».proof.Proof.RefIsSpec
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel was idealized without rewriting any operation. -/
theorem preserves : Cert.preserves_Kernel_KernelIdeal := trivial

/-- The reference's last stage, of the kernel's argument arrays, is the kernel's result function: at (0, o, b, 0) both
    are the specified result at channel o for batch row b, and the two unit axes have only the coordinate 0. -/
theorem ref_is_result (m : (ℓ : Loc Cert.KernelIdeal.nD Cert.KernelIdeal.τ Cert.KernelIdeal.sig) → Buf (Elt Ideal) ℓ)
    (c : Dev Cert.KernelIdeal.nD) :
    Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.GroupNormMin.Blocks.Gres m c := by
  funext i
  obtain ⟨i0, o, b, i3, rfl⟩ : ∃ (i0 : Fin 1) (o : Fin 256) (b : Fin 65536) (i3 : Fin 1), i = ix4 i0 o b i3 :=
    ⟨i 0, i 1, i 2, i 3, eq_ix4 i⟩
  obtain rfl : i0 = 0 := Subsingleton.elim _ _
  obtain rfl : i3 = 0 := Subsingleton.elim _ _
  exact Cert.GroupNormMin.Ref.ref_apply _ _ _ _ _ _ o b

/-- Run from memories that agree on the arguments, the idealized kernel ends with its result at the one function of its
    arguments, and the idealized reference at its last stage of the same arrays, which is that function. -/
theorem algebraic : Cert.algebraic_KernelIdeal_ReferenceIdeal := by
  intro m ρ m' ρ' _ hagree
  refine ⟨fun c => Cert.GroupNormMin.Blocks.Gres m c, Cert.GroupNormMin.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v35_eq, h0, h1, h2, h3, h4, h5]
  exact ref_is_result m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
